-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : IVec S2x500000 32) (main_arg2 : FVec F S128x256 .f32) (main_arg3 : FVec F S256 .f32) (main_arg4 : FVec F S256x256 .f32) (main_arg5 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x128 : Shape := ⟨2, ![50000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x256 : Shape := ⟨2, ![50000, 256]⟩
abbrev S2000x128 : Shape := ⟨2, ![2000, 128]⟩
abbrev S2000x256 : Shape := ⟨2, ![2000, 256]⟩
abbrev S550000x256 : Shape := ⟨2, ![550000, 256]⟩
abbrev S1x256 : Shape := ⟨2, ![1, 256]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x500000, .i32⟩
  | .hbm, ⟨8, _⟩ => ⟨S500000, .i32⟩
  | .hbm, ⟨9, _⟩ => ⟨S550000, .i32⟩
  | .hbm, ⟨10, _⟩ => ⟨S1x500000, .i32⟩
  | .hbm, ⟨11, _⟩ => ⟨S500000, .i32⟩
  | .hbm, ⟨12, _⟩ => ⟨S550000, .i32⟩
  | .hbm, ⟨13, _⟩ => ⟨S_, .f32⟩
  | .hbm, ⟨14, _⟩ => ⟨S550000, .f32⟩
  | .hbm, ⟨15, _⟩ => ⟨S_, .f32⟩
  | .hbm, ⟨16, _⟩ => ⟨S50000, .f32⟩
  | .hbm, ⟨17, _⟩ => ⟨S550000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S550000, .i32⟩
  | .hbm, ⟨29, _⟩ => ⟨S550000, .i1⟩
  | .hbm, ⟨30, _⟩ => ⟨S_, .i32⟩
  | .hbm, ⟨31, _⟩ => ⟨S550000, .i32⟩
  | .hbm, ⟨32, _⟩ => ⟨S550000, .i32⟩
  | .hbm, ⟨33, _⟩ => ⟨S550000, .i32⟩
  | .hbm, ⟨34, _⟩ => ⟨S550000x1, .i32⟩
  | .hbm, ⟨35, _⟩ => ⟨S550000, .f32⟩
  | .hbm, ⟨36, _⟩ => ⟨S_, .i32⟩
  | .hbm, ⟨37, _⟩ => ⟨S550000, .i32⟩
  | .hbm, ⟨38, _⟩ => ⟨S550000, .i1⟩
  | .hbm, ⟨39, _⟩ => ⟨S_, .i32⟩
  | .hbm, ⟨40, _⟩ => ⟨S550000, .i32⟩
  | .hbm, ⟨41, _⟩ => ⟨S550000, .i32⟩
  | .hbm, ⟨42, _⟩ => ⟨S550000, .i32⟩
  | .hbm, ⟨43, _⟩ => ⟨S550000x1, .i32⟩
  | .hbm, ⟨44, _⟩ => ⟨S550000, .f32⟩
  | .hbm, ⟨45, _⟩ => ⟨S550000, .f32⟩
  | .hbm, ⟨46, _⟩ => ⟨S50000x256, .f32⟩
  | .hbm, ⟨47, _⟩ => ⟨S_, .i32⟩
  | .hbm, ⟨48, _⟩ => ⟨S550000, .i32⟩
  | .hbm, ⟨49, _⟩ => ⟨S550000, .i1⟩
  | .hbm, ⟨50, _⟩ => ⟨S_, .i32⟩
  | .hbm, ⟨51, _⟩ => ⟨S550000, .i32⟩
  | .hbm, ⟨52, _⟩ => ⟨S550000, .i32⟩
  | .hbm, ⟨53, _⟩ => ⟨S550000, .i32⟩
  | .hbm, ⟨54, _⟩ => ⟨S550000x1, .i32⟩
  | .hbm, ⟨55, _⟩ => ⟨S550000x256, .f32⟩
  | .hbm, ⟨56, _⟩ => ⟨S550000x1, .f32⟩
  | .hbm, ⟨57, _⟩ => ⟨S550000x256, .f32⟩
  | .hbm, ⟨58, _⟩ => ⟨S550000x256, .f32⟩
  | .hbm, ⟨59, _⟩ => ⟨S_, .f32⟩
  | .hbm, ⟨60, _⟩ => ⟨S50000x256, .f32⟩
  | .hbm, ⟨61, _⟩ => ⟨S550000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S550000, .i32⟩
  | .hbm, ⟨68, _⟩ => ⟨S550000, .i1⟩
  | .hbm, ⟨69, _⟩ => ⟨S_, .i32⟩
  | .hbm, ⟨70, _⟩ => ⟨S550000, .i32⟩
  | .hbm, ⟨71, _⟩ => ⟨S550000, .i32⟩
  | .hbm, ⟨72, _⟩ => ⟨S550000, .i32⟩
  | .hbm, ⟨73, _⟩ => ⟨S550000x1, .i32⟩
  | .hbm, ⟨74, _⟩ => ⟨S550000x256, .f32⟩
  | .hbm, ⟨75, _⟩ => ⟨S550000x1, .f32⟩
  | .hbm, ⟨76, _⟩ => ⟨S550000x256, .f32⟩
  | .hbm, ⟨77, _⟩ => ⟨S550000x256, .f32⟩
  | .hbm, ⟨78, _⟩ => ⟨S_, .f32⟩
  | .hbm, ⟨79, _⟩ => ⟨S50000x256, .f32⟩
  | .hbm, ⟨80, _⟩ => ⟨S550000x1, .i32⟩
  | .hbm, ⟨81, _⟩ => ⟨S50000x256, .f32⟩
  | .hbm, ⟨82, _⟩ => ⟨S1x256, .f32⟩
  | .hbm, ⟨83, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S550000x1_S550000x256_0_1 : S550000x1.BroadcastsInDim S550000x256 (![0, 1] : Fin 2 → Fin S550000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S2000x128_S128x256_S2000x256_1_0_0_1_n_n_wf : DotDims.WF S2000x128 S128x256 S2000x256 [1] [0] [0] [1] [] []
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x256 : Shape := ⟨2, ![50000, 256]⟩
abbrev S550000x256 : Shape := ⟨2, ![550000, 256]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x500000, .i32⟩
  | .hbm, ⟨8, _⟩ => ⟨S500000, .i32⟩
  | .hbm, ⟨9, _⟩ => ⟨S550000, .i32⟩
  | .hbm, ⟨10, _⟩ => ⟨S1x500000, .i32⟩
  | .hbm, ⟨11, _⟩ => ⟨S500000, .i32⟩
  | .hbm, ⟨12, _⟩ => ⟨S550000, .i32⟩
  | .hbm, ⟨13, _⟩ => ⟨S_, .f32⟩
  | .hbm, ⟨14, _⟩ => ⟨S550000, .f32⟩
  | .hbm, ⟨15, _⟩ => ⟨S_, .f32⟩
  | .hbm, ⟨16, _⟩ => ⟨S50000, .f32⟩
  | .hbm, ⟨17, _⟩ => ⟨S550000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S550000, .i32⟩
  | .hbm, ⟨29, _⟩ => ⟨S550000, .i1⟩
  | .hbm, ⟨30, _⟩ => ⟨S_, .i32⟩
  | .hbm, ⟨31, _⟩ => ⟨S550000, .i32⟩
  | .hbm, ⟨32, _⟩ => ⟨S550000, .i32⟩
  | .hbm, ⟨33, _⟩ => ⟨S550000, .i32⟩
  | .hbm, ⟨34, _⟩ => ⟨S550000x1, .i32⟩
  | .hbm, ⟨35, _⟩ => ⟨S550000, .f32⟩
  | .hbm, ⟨36, _⟩ => ⟨S_, .i32⟩
  | .hbm, ⟨37, _⟩ => ⟨S550000, .i32⟩
  | .hbm, ⟨38, _⟩ => ⟨S550000, .i1⟩
  | .hbm, ⟨39, _⟩ => ⟨S_, .i32⟩
  | .hbm, ⟨40, _⟩ => ⟨S550000, .i32⟩
  | .hbm, ⟨41, _⟩ => ⟨S550000, .i32⟩
  | .hbm, ⟨42, _⟩ => ⟨S550000, .i32⟩
  | .hbm, ⟨43, _⟩ => ⟨S550000x1, .i32⟩
  | .hbm, ⟨44, _⟩ => ⟨S550000, .f32⟩
  | .hbm, ⟨45, _⟩ => ⟨S550000, .f32⟩
  | .hbm, ⟨46, _⟩ => ⟨S50000x256, .f32⟩
  | .hbm, ⟨47, _⟩ => ⟨S_, .i32⟩
  | .hbm, ⟨48, _⟩ => ⟨S550000, .i32⟩
  | .hbm, ⟨49, _⟩ => ⟨S550000, .i1⟩
  | .hbm, ⟨50, _⟩ => ⟨S_, .i32⟩
  | .hbm, ⟨51, _⟩ => ⟨S550000, .i32⟩
  | .hbm, ⟨52, _⟩ => ⟨S550000, .i32⟩
  | .hbm, ⟨53, _⟩ => ⟨S550000, .i32⟩
  | .hbm, ⟨54, _⟩ => ⟨S550000x1, .i32⟩
  | .hbm, ⟨55, _⟩ => ⟨S550000x256, .f32⟩
  | .hbm, ⟨56, _⟩ => ⟨S550000x1, .f32⟩
  | .hbm, ⟨57, _⟩ => ⟨S550000x256, .f32⟩
  | .hbm, ⟨58, _⟩ => ⟨S550000x256, .f32⟩
  | .hbm, ⟨59, _⟩ => ⟨S_, .f32⟩
  | .hbm, ⟨60, _⟩ => ⟨S50000x256, .f32⟩
  | .hbm, ⟨61, _⟩ => ⟨S550000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S550000, .i32⟩
  | .hbm, ⟨72, _⟩ => ⟨S550000, .i1⟩
  | .hbm, ⟨73, _⟩ => ⟨S_, .i32⟩
  | .hbm, ⟨74, _⟩ => ⟨S550000, .i32⟩
  | .hbm, ⟨75, _⟩ => ⟨S550000, .i32⟩
  | .hbm, ⟨76, _⟩ => ⟨S550000, .i32⟩
  | .hbm, ⟨77, _⟩ => ⟨S550000x1, .i32⟩
  | .hbm, ⟨78, _⟩ => ⟨S550000x256, .f32⟩
  | .hbm, ⟨79, _⟩ => ⟨S550000x1, .f32⟩
  | .hbm, ⟨80, _⟩ => ⟨S550000x256, .f32⟩
  | .hbm, ⟨81, _⟩ => ⟨S550000x256, .f32⟩
  | .hbm, ⟨82, _⟩ => ⟨S_, .f32⟩
  | .hbm, ⟨83, _⟩ => ⟨S50000x256, .f32⟩
  | .hbm, ⟨84, _⟩ => ⟨S550000x1, .i32⟩
  | .hbm, ⟨85, _⟩ => ⟨S50000x256, .f32⟩
  | .hbm, ⟨86, _⟩ => ⟨S1x256, .f32⟩
  | .hbm, ⟨87, _⟩ => ⟨S50000x256, .f32⟩
  | .hbm, ⟨88, _⟩ => ⟨S50000x256, .f32⟩
  | .hbm, ⟨89, _⟩ => ⟨S_, .f32⟩
  | .hbm, ⟨90, _⟩ => ⟨S50000x256, .f32⟩
  | .hbm, ⟨91, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x256_0_1 : S550000x1.BroadcastsInDim S550000x256 (![0, 1] : Fin 2 → Fin S550000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x128_S128x256_S50000x256_1_0_0_1_n_n_wf : DotDims.WF S50000x128 S128x256 S50000x256 [1] [0] [0] [1] [] []
  gather_S50000x256_S550000x1_S550000x256_1_0_n_n_0_1_1256_wf : GatherDims.WF S50000x256 S550000x1 S550000x256 [1] [0] [] [0] [] 1 ![1, 256]
  scatter_S50000x256_S550000x1_S550000x256_1_0_0_1_wf : ScatterDims.WF S50000x256 S550000x1 S550000x256 [1] [0] [0] 1
  dot_S50000x256_S256x256_S50000x256_1_0_0_1_n_n_wf : DotDims.WF S50000x256 S256x256 S50000x256 [1] [0] [0] [1] [] []

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S550000x1_S550000x256_1_0_n_n_0_1_1256 : GatherDims S50000x256 S550000x1 S550000x256 where
  offsetDims := [1]
  collapsedSliceDims := [0]
  operandBatchingDims := []
  startIndicesBatchingDims := []
  startIndexMap := [0]
  indexVectorDim := 1
  sliceSizes := ![1, 256]
  wf := gather_S50000x256_S550000x1_S550000x256_1_0_n_n_0_1_1256_wf
def scatter_S50000x256_S550000x1_S550000x256_1_0_0_1 : ScatterDims S50000x256 S550000x1 S550000x256 where
  updateWindowDims := [1]
  insertedWindowDims := [0]
  scatterDimsToOperandDims := [0]
  indexVectorDim := 1
  wf := scatter_S50000x256_S550000x1_S550000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.HostFold.lean ====
/-
  The host side of the kernel's program, one stretch at a time, at any float family.

  Between its four regions the program gathers the rows of the projected features at the edges' sources (a negative
  index wrapped once by the node count), scales each gathered row by its edge's weight and sums the rows into the
  edges' destinations: `aggregate`. Both layers run that same chain, and the reference program runs it too, so it is
  carried here as ONE function of the three edge arrays and the projected features and never opened. Before the first
  region the program computes the edge arrays themselves (sources and destinations with the self-loops appended, the
  symmetric weight of every edge from the destinations' degrees) from the edge-index argument alone; those three are
  the reference's own stages of that argument, operation for operation.
-/
import proofs.«138582_j1915555414201_1_alg».proof.Proof.Gen.KernelIdeal.Frame
import proofs.«138582_j1915555414201_1_alg».proof.Proof.RefRead
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.HostFold

open Cert.KernelIdeal Cert.KernelIdeal.Gen
open Cert.ReferenceIdeal.ReadP

variable {F : FTy → Type} [FloatOps F]

/-! ## The shared chain of a layer -/

/-- Rows of `h` gathered at `src` (a negative index wrapped once by the node count), each scaled by its edge's
    weight, and summed into the rows `dst` names. -/
def aggregate (src dst : (⟨S550000, .i32⟩ : BufTy).Contents (Elt F)) (w : (⟨S550000, .f32⟩ : BufTy).Contents (Elt F))
    (h : (⟨S50000x256, .f32⟩ : BufTy).Contents (Elt F)) : (⟨S50000x256, .f32⟩ : BufTy).Contents (Elt F) :=
  Host.scatterAdd scatter_S50000x256_S550000x1_S550000x256_1_0_0_1
    (broadcastInDim S50000x256 ![] bcast_S_S50000x256 (constant S_ .f32 0x00000000#32))
    (broadcastInDim S550000x1 ![0] bcast_S550000_S550000x1_0 dst)
    (mulf (Host.gather gather_S50000x256_S550000x1_S550000x256_1_0_n_n_0_1_1256 h
            (broadcastInDim S550000x1 ![0] bcast_S550000_S550000x1_0
              (select (cmpi .slt src (broadcastInDim S550000 ![] bcast_S_S550000 (constantI S_ 32 0#32)))
                (addi src (broadcastInDim S550000 ![] bcast_S_S550000 (constantI S_ 32 50000#32))) src)))
          (broadcastInDim S550000x256 ![0, 1] bcast_S550000x1_S550000x256_0_1
            (broadcastInDim S550000x1 ![0] bcast_S550000_S550000x1_0 w)))

/-- The reference's aggregate of its first layer is `aggregate` of its own edge arrays and its first projection. -/
theorem ref_aggregate1 (x0 : (⟨S50000x128, .f32⟩ : BufTy).Contents (Elt F)) (x1 : (⟨S2x500000, .i32⟩ : BufTy).Contents (Elt F))
    (x2 : (⟨S128x256, .f32⟩ : BufTy).Contents (Elt F)) :
    val_main_v43 (F := F) x0 x1 x2
      = aggregate (val_main_v3 (F := F) x1) (val_main_v6 (F := F) x1) (val_main_v29 (F := F) x1) (val_main_v30 (F := F) x0 x2) := by
  unfold val_main_v43 val_main_v41 val_main_v42 val_main_v40 val_main_v37 val_main_v36 val_main_v35 val_main_v32 val_main_v31
    val_main_c_6 val_main_v34 val_main_v33 val_main_c_7 val_main_v39 val_main_v38 val_main_cst_8 aggregate
  rfl

/-- The reference's aggregate of its second layer is `aggregate` of the same edge arrays and its second projection. -/
theorem ref_aggregate2 (x0 : (⟨S50000x128, .f32⟩ : BufTy).Contents (Elt F)) (x1 : (⟨S2x500000, .i32⟩ : BufTy).Contents (Elt F))
    (x2 : (⟨S128x256, .f32⟩ : BufTy).Contents (Elt F)) (x3 : (⟨S256, .f32⟩ : BufTy).Contents (Elt F))
    (x4 : (⟨S256x256, .f32⟩ : BufTy).Contents (Elt F)) :
    val_main_v61 (F := F) x0 x1 x2 x3 x4
      = aggregate (val_main_v3 (F := F) x1) (val_main_v6 (F := F) x1) (val_main_v29 (F := F) x1) (val_main_v48 (F := F) x0 x1 x2 x3 x4) := by
  unfold val_main_v61 val_main_v59 val_main_v60 val_main_v58 val_main_v55 val_main_v54 val_main_v53 val_main_v50 val_main_v49
    val_main_c_9 val_main_v52 val_main_v51 val_main_c_10 val_main_v57 val_main_v56 val_main_cst_11 aggregate
  rfl

/-! ## The bias as a row

The kernel's program reshapes a bias of 256 entries to one row [1, 256]; the reference broadcasts it there along the
second axis. Entry (0, q) of either is entry q of the bias. -/

theorem bias_row (b : (⟨S256, .f32⟩ : BufTy).Contents (Elt F)) :
    (fun i => shapeCast S1x256 b shapeCasts_S256_S1x256 i : (⟨S1x256, .f32⟩ : BufTy).Contents (Elt F))
      = broadcastInDim Cert.ReferenceIdeal.S1x256 ![1] Cert.ReferenceIdeal.Gen.bcast_S256_S1x256_1 b := by
  funext i
  refine (shapeCast_addUnit_apply ![256] b shapeCasts_S256_S1x256 i).trans ?_
  refine (broadcastInDim_apply (s := Cert.ReferenceIdeal.S256) (t := Cert.ReferenceIdeal.S1x256) ![1]
    Cert.ReferenceIdeal.Gen.bcast_S256_S1x256_1 b i (fun a => i a.succ) (fun a => ?_)).symm
  match a with
  | ⟨0, _⟩ => show (i 1).val = if (256 : Nat) = 1 then 0 else (i 1).val; rw [if_neg (by decide)]

/-! ## The two later stretches, from any contents `X` -/

set_option maxHeartbeats 4000000 in
/-- After the stretch between regions 0 and 1 the aggregate's buffer holds `aggregate` of what the stretch found. -/
theorem stretch1_aggregate (X : Valuation τ sig (Elt F)) :
    StableHlo.after (hostOps1 (F := F)) X (Proc.devRef .tc main_v43)
      = aggregate (X (Proc.devRef .tc main_v3)) (X (Proc.devRef .tc main_v6)) (X (Proc.devRef .tc main_v29)) (X (Proc.devRef .tc main_v30)) := by
  after_results_simp
  rfl

set_option maxHeartbeats 4000000 in
/-- and the bias row's buffer the first bias reshaped. -/
theorem stretch1_bias (X : Valuation τ sig (Elt F)) :
    StableHlo.after (hostOps1 (F := F)) X (Proc.devRef .tc main_v44)
      = (fun i => shapeCast S1x256 (X (Proc.devRef .tc main_arg3)) shapeCasts_S256_S1x256 i) := by
  after_results_simp
  rfl

set_option maxHeartbeats 4000000 in
/-- The stretch writes neither the edge arrays nor the later arguments. -/
theorem stretch1_keeps (X : Valuation τ sig (Elt F)) :
    StableHlo.after (hostOps1 (F := F)) X (Proc.devRef .tc main_v3) = X (Proc.devRef .tc main_v3)
    ∧ StableHlo.after (hostOps1 (F := F)) X (Proc.devRef .tc main_v6) = X (Proc.devRef .tc main_v6)
    ∧ StableHlo.after (hostOps1 (F := F)) X (Proc.devRef .tc main_v29) = X (Proc.devRef .tc main_v29)
    ∧ StableHlo.after (hostOps1 (F := F)) X (Proc.devRef .tc main_arg4) = X (Proc.devRef .tc main_arg4)
    ∧ StableHlo.after (hostOps1 (F := F)) X (Proc.devRef .tc main_arg5) = X (Proc.devRef .tc main_arg5) := by
  refine ⟨?_, ?_, ?_, ?_, ?_⟩ <;> after_results_simp

set_option maxHeartbeats 4000000 in
/-- After the stretch between regions 2 and 3 the aggregate's buffer holds `aggregate` of what the stretch found. -/
theorem stretch3_aggregate (X : Valuation τ sig (Elt F)) :
    StableHlo.after (hostOps3 (F := F)) X (Proc.devRef .tc main_v59)
      = aggregate (X (Proc.devRef .tc main_v3)) (X (Proc.devRef .tc main_v6)) (X (Proc.devRef .tc main_v29)) (X (Proc.devRef .tc main_v46)) := by
  after_results_simp
  rfl

set_option maxHeartbeats 4000000 in
/-- and the bias row's buffer the second bias reshaped. -/
theorem stretch3_bias (X : Valuation τ sig (Elt F)) :
    StableHlo.after (hostOps3 (F := F)) X (Proc.devRef .tc main_v60)
      = (fun i => shapeCast S1x256 (X (Proc.devRef .tc main_arg5)) shapeCasts_S256_S1x256 i) := by
  after_results_simp
  rfl

/-! ## The stretches before the first region, from the launch memory -/

variable (m : (ℓ : Loc nD τ sig) → Buf (Elt F) ℓ) (ρ : Dev nD → PrngReg)

set_option maxHeartbeats 8000000 in
/-- When the first region is entered the sources' buffer holds the reference's sources of the edge-index argument, -/
theorem entry_src (c : Dev nD) :
    W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp
  unfold val_main_v3 val_main_v2 val_main_v1 val_main_v0
  rfl

set_option maxHeartbeats 8000000 in
/-- the destinations' buffer its destinations, -/
theorem entry_dst (c : Dev nD) :
    W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results_simp
  unfold val_main_v6 val_main_v5 val_main_v4 val_main_v0
  rfl

set_option maxHeartbeats 8000000 in
/-- and the weights' buffer its edge weights. -/
theorem entry_weight (c : Dev nD) :
    W3 m ρ c (Proc.devRef .tc main_v29) = val_main_v29 (F := F) (m ((c : Thread nD τ).loc main_arg1)) := by
  show StableHlo.after hostOps0_2 (StableHlo.after hostOps0_1 (StableHlo.after hostOps0 (W0 m ρ c))) (Proc.devRef .tc main_v29) = _
  after_results_simp
  unfold val_main_v29 val_main_v21 val_main_v28 val_main_v20 val_main_v27 val_main_v19 val_main_v26 val_main_v16 val_main_v18
    val_main_v23 val_main_v25 val_main_v15 val_main_v17 val_main_v22 val_main_v24 val_main_c val_main_c_3 val_main_c_4 val_main_c_5
    val_main_v14 val_main_call0_v1 val_main_call0_v0 val_main_cst_2 val_main_v12 val_main_v13 val_main_v11 val_main_cst_1
    val_main_v10 val_main_v9 val_main_v8 val_main_v7 val_main_cst_0 val_main_cst val_main_v3 val_main_v6 val_main_v2 val_main_v5
    val_main_v1 val_main_v4 val_main_v0
  rfl

set_option maxHeartbeats 8000000 in
/-- No operation before the first region writes an argument. -/
theorem entry_args (c : Dev nD) :
    W3 m ρ c (Proc.devRef .tc main_arg0) = m ((c : Thread nD τ).loc main_arg0)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5) := by
  refine ⟨?_, ?_, ?_, ?_, ?_⟩ <;>
    (show StableHlo.after hostOps0_2 (StableHlo.after hostOps0_1 (StableHlo.after hostOps0 (W0 m ρ c))) _ = _
     after_results_simp)

end Cert.KernelIdeal.HostFold

end
-- ==== Proof.RegionMatmul0.lean ====
import proofs.«138582_j1915555414201_1_alg».proof.Proof.Gen.KernelIdeal.Frame
import proofs.«138582_j1915555414201_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

namespace Matmul0

/-! ## The block product's operand indices -/

/-- Left operand of the block product, row axis: the output's row. -/
theorem blockDot_lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- Left operand, column axis: the contraction index. -/
theorem blockDot_lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- Right operand, row axis: the contraction index. -/
theorem blockDot_rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- Right operand, column axis: the output's column. -/
theorem blockDot_rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry (p, q) of the body's block product: the sum over the 128 contraction positions of the left block's row p
    times the right block's column q (the narrowing to bf16 is the identity on ideal values, the accumulator is zero). -/
theorem blockProduct_apply (xb : Vec Ideal S2000x128 .f32) (wb : Vec Ideal S128x256 .f32) (p : Fin 2000) (q : Fin 256) :
    k0_pay1 (F := Ideal) xb wb (ValueIdx.ix2 p q) = ∑ k : Fin 128, xb (ValueIdx.ix2 p k) * wb (ValueIdx.ix2 k q) := by
  unfold k0_pay1
  refine (Ideal.matmul_constant_zero_apply dot_S2000x128_S128x256_S2000x256_1_0_0_1_n_n none _ _ (ValueIdx.ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ValueIdx.ix2 p q) ((ValueIdx.contrEquiv1 dot_S2000x128_S128x256_S2000x256_1_0_0_1_n_n 128 rfl rfl).symm k) = ValueIdx.ix2 p k := funext fun a => Fin.ext (by
    match a with
    | ⟨0, _⟩ => exact blockDot_lhs_row _ _
    | ⟨1, _⟩ => exact (blockDot_lhs_col _ _).trans hk)
  have er : dot_S2000x128_S128x256_S2000x256_1_0_0_1_n_n.rhsIdx (ValueIdx.ix2 p q) ((ValueIdx.contrEquiv1 dot_S2000x128_S128x256_S2000x256_1_0_0_1_n_n 128 rfl rfl).symm k) = ValueIdx.ix2 k q := funext fun a => Fin.ext (by
    match a with
    | ⟨0, _⟩ => exact (blockDot_rhs_row _ _).trans hk
    | ⟨1, _⟩ => exact blockDot_rhs_col _ _)
  rw [ValueIdx.truncf_apply, ValueIdx.truncf_apply, el, er]

/-! ## The whole product's operand indices -/

/-- Left operand of the whole product, row axis: the output's row. -/
theorem wholeDot_lhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch by decide), dif_pos (show (0 : Fin Cert.ReferenceIdeal.S50000x128.rank) ∈ Cert.ReferenceIdeal.dot_S50000x128_S128x256_S50000x256_1_0_0_1_n_n.lhsNonContracting by decide)]
  rfl
/-- Left operand, column axis: the contraction index. -/
theorem wholeDot_lhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
/-- Right operand, row axis: the contraction index. -/
theorem wholeDot_rhs_row (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
/-- Right operand, column axis: the output's column. -/
theorem wholeDot_rhs_col (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch by decide), dif_pos (show (1 : Fin Cert.ReferenceIdeal.S128x256.rank) ∈ Cert.ReferenceIdeal.dot_S50000x128_S128x256_S50000x256_1_0_0_1_n_n.rhsNonContracting by decide)]
  rfl

/-- Entry (r, q) of the whole product: the sum over the 128 contraction positions of the left operand's row r times
    the right operand's column q. -/
theorem wholeProduct_apply (X : FVec Ideal Cert.ReferenceIdeal.S50000x128 .f32) (W : FVec Ideal Cert.ReferenceIdeal.S128x256 .f32) (r : Fin 50000) (q : Fin 256) :
    Host.dotGeneral (F := Ideal) (φ₁ := .f32) (φ₂ := .f32) Cert.ReferenceIdeal.dot_S50000x128_S128x256_S50000x256_1_0_0_1_n_n none X W (ValueIdx.ix2 r q)
      = ∑ k : Fin 128, X (ValueIdx.ix2 r k) * W (ValueIdx.ix2 k q) := by
  simp only [Host.dotGeneral]
  rw [Ideal.dotGeneral_apply, ← Equiv.sum_comp (ValueIdx.contrEquiv1 Cert.ReferenceIdeal.dot_S50000x128_S128x256_S50000x256_1_0_0_1_n_n 128 rfl rfl).symm]
  refine Finset.sum_congr rfl fun k _ => ?_
  have hk := ValueIdx.contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ValueIdx.ix2 r q) ((ValueIdx.contrEquiv1 Cert.ReferenceIdeal.dot_S50000x128_S128x256_S50000x256_1_0_0_1_n_n 128 rfl rfl).symm k) = ValueIdx.ix2 r k := funext fun a => Fin.ext (by
    match a with
    | ⟨0, _⟩ => exact wholeDot_lhs_row _ _
    | ⟨1, _⟩ => exact (wholeDot_lhs_col _ _).trans hk)
  have er : Cert.ReferenceIdeal.dot_S50000x128_S128x256_S50000x256_1_0_0_1_n_n.rhsIdx (ValueIdx.ix2 r q) ((ValueIdx.contrEquiv1 Cert.ReferenceIdeal.dot_S50000x128_S128x256_S50000x256_1_0_0_1_n_n 128 rfl rfl).symm k) = ValueIdx.ix2 k q := funext fun a => Fin.ext (by
    match a with
    | ⟨0, _⟩ => exact (wholeDot_rhs_row _ _).trans hk
    | ⟨1, _⟩ => exact wholeDot_rhs_col _ _)
  rw [el, er]

/-- Block against whole, entry by entry: when the left block's rows are rows tv·2000 … tv·2000 + 1999 of the whole left
    operand and the right block is the whole right operand, entry j of the block product is the whole product's entry
    at the same column and at row tv·2000 + (row of j) — the two sums run over the same 128 products. -/
theorem blockProduct_eq_wholeProduct (xb : Vec Ideal S2000x128 .f32) (wb : Vec Ideal S128x256 .f32)
    (X : FVec Ideal Cert.ReferenceIdeal.S50000x128 .f32) (W : FVec Ideal Cert.ReferenceIdeal.S128x256 .f32) (tv : Nat)
    (hx : ∀ (x : S2000x128.Idx) (y : Cert.ReferenceIdeal.S50000x128.Idx), (y 0).val = tv * 2000 + (x 0).val → (y 1).val = (x 1).val → xb x = X y)
    (hw : ∀ z : S128x256.Idx, wb z = W z)
    (j : S2000x256.Idx) (i : Cert.ReferenceIdeal.S50000x256.Idx) (hi0 : (i 0).val = tv * 2000 + (j 0).val) (hi1 : (i 1).val = (j 1).val) :
    k0_pay1 (F := Ideal) xb wb j
      = Host.dotGeneral (F := Ideal) (φ₁ := .f32) (φ₂ := .f32) Cert.ReferenceIdeal.dot_S50000x128_S128x256_S50000x256_1_0_0_1_n_n none X W i := by
  obtain ⟨p, q, rfl⟩ : ∃ (p : Fin 2000) (q : Fin 256), j = ValueIdx.ix2 p q := ⟨j 0, j 1, ValueIdx.eq_ix2 j⟩
  obtain ⟨r, s, rfl⟩ : ∃ (r : Fin 50000) (s : Fin 256), i = ValueIdx.ix2 r s := ⟨i 0, i 1, ValueIdx.eq_ix2 i⟩
  obtain rfl : s = q := Fin.ext hi1
  rw [blockProduct_apply, wholeProduct_apply]
  refine Finset.sum_congr rfl fun k _ => ?_
  rw [hx (ValueIdx.ix2 p k) (ValueIdx.ix2 r k) hi0 rfl, hw]

/-! ## The windows' blocks inside their arrays -/

theorem zero_offsets : (![0, 0] : Fin 2 → Nat) = fun _ => 0 := funext fun a => by fin_cases a <;> rfl

/-- The printed index maps over the 25 grid points: the left operand's and the output's block index is (t, 0), the
    right operand's is (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the output is some grid point's. -/
theorem block_index_onto : ∀ b : Fin 25, ∃ t : Fin cfg0.N, win0_2.index t (0 : Fin 2) = b.val ∧ win0_2.index t (1 : Fin 2) = 0 :=
  (by decide +kernel : ∀ b : Fin 25, ∃ t : Fin grid0.N, win0_2.index t (0 : Fin 2) = b.val ∧ win0_2.index t (1 : Fin 2) = 0)

/-- The left operand's block at point t is rows 2000·t … 2000·t + 1999 of the whole left operand, all 128 columns. -/
theorem leftBlock_apply (c : Dev nD) (t : Fin cfg0.N) (x : S2000x128.Idx) (y : S50000x128.Idx)
    (h0 : (y 0).val = t.val * 2000 + (x 0).val) (h1 : (y 1).val = (x 1).val) :
    (iblk0 (F := Ideal) V c 0 t : Vec Ideal S2000x128 .f32) x = (V c main_arg0 : S50000x128.Idx → Elt Ideal .f32) y := by
  obtain ⟨e00, e01, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * (x 0).val = (y 0).val; rw [e00, h0]; omega
  | ⟨1, _⟩ => show win0_0.index t (1 : Fin 2) * 128 + 1 * (x 1).val = (y 1).val; rw [e01, h1]; omega

/-- The right operand's block at every point is the whole right operand. -/
theorem rightBlock_apply (c : Dev nD) (t : Fin cfg0.N) (z : S128x256.Idx) :
    (iblk0 (F := Ideal) V c 1 t : Vec Ideal S128x256 .f32) z = (V c main_arg2 : S128x256.Idx → Elt Ideal .f32) z := by
  obtain ⟨-, -, e10, e11, -⟩ := block_indices t
  unfold iblk0
  rw [View.read_apply]
  show V c main_arg2 _ = V c main_arg2 _
  congr 1
  funext a
  apply Fin.ext
  match a with
  | ⟨0, _⟩ => show win0_1.index t (0 : Fin 2) * 128 + 1 * (z 0).val = (z 0).val; rw [e10]; omega
  | ⟨1, _⟩ => show win0_1.index t (1 : Fin 2) * 256 + 1 * (z 1).val = (z 1).val; rw [e11]; omega

/-! ## What a point writes back, and the cover -/

/-- What point t writes back is block t of the whole product of the two operand arrays. -/
theorem flushed_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x128_S128x256_S50000x256_1_0_0_1_n_n none (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x128) zero_offsets, View.ld_unit_zero (S := S128x256) zero_offsets]
  obtain ⟨-, -, -, -, e20, e21⟩ := block_indices t
  funext j
  refine blockProduct_eq_wholeProduct (iblk0 (F := Ideal) V c 0 t) (iblk0 (F := Ideal) V c 1 t) (V c main_arg0) (V c main_arg2) t.val
    (fun x y h0 h1 => leftBlock_apply V c t x y h0 h1) (fun z => rightBlock_apply V c t z)
    ((cfg0.win 2).xinj (grid0.coords t) j) (((cfg0.win 2).blk t).view.emb j) ?_ ?_
  · show win0_2.index t (0 : Fin 2) * 2000 + 1 * (j 0).val = t.val * 2000 + (j 0).val
    rw [e20]; omega
  · show win0_2.index t (1 : Fin 2) * 256 + 1 * (j 1).val = (j 1).val
    rw [e21]; omega

/-- An index of the output array is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Row r of the output lies in the block of the point whose block index is r / 2000; the 256 columns are one block. -/
theorem covered (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, q0, q1⟩ := block_index_onto ⟨(i 0).val / 2000, by omega⟩
  have q0' : win0_2.index t (0 : Fin 2) = (i 0).val / 2000 := q0
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

end Matmul0

/-- The output array after the region is the whole product: every point writes back its block of it, and the blocks
    cover the array. -/
theorem region0 (c : Dev nD) :
    (dat0 (F := Ideal) V c).arrAt 2 cfg0.N
      = Host.dotGeneral (F := Ideal) (φ₁ := .f32) (φ₂ := .f32) Cert.ReferenceIdeal.dot_S50000x128_S128x256_S50000x256_1_0_0_1_n_n none (V c main_arg0) (V c main_arg2) := by
  exact (dat0 (F := Ideal) V c).arrAt_eq_of_cover 2 _ (fun t _ => Matmul0.flushed_eq V c t) Matmul0.covered

end Cert.KernelIdeal.RegionValue

end
-- ==== Proof.RegionBiasRelu1.lean ====
/- Region 1 of the two-layer graph convolution: the first bias-add-and-clamp. Over a grid of 25 points the body takes a
   block of 2000 rows of the [50000,256] input and the whole [1,256] bias row, adds the bias to every row and clamps
   below at zero, and writes the block back. Proved here: after the 25 write-backs the output array is ONE function
   of the region's input arrays, max (input + bias broadcast along rows) 0, entry by entry. -/
import proofs.«138582_j1915555414201_1_alg».proof.Proof.Gen.KernelIdeal.Frame
import proofs.«138582_j1915555414201_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

open Idealize.ShloMosaic.ValueIdx

/-! ## One entry of a block, one entry of the array -/

/-- The body's whole-buffer accesses start at the origin. -/
theorem origin_eq_zero1 : (![0, 0] : Fin 2 → Nat) = fun _ => 0 := funext fun a => by fin_cases a <;> rfl

/-- Entry (p, q) of what the body stores: the input block's entry (p, q) plus the bias row's entry at column q
    (the two shape casts are to the same shapes; the row broadcast reads row 0), clamped below at the zero word. -/
theorem biasReluBlock1_apply (x0 : Vec Ideal S2000x256 .f32) (x1 : Vec Ideal S1x256 .f32) (p : Fin 2000) (q : Fin 256) :
    k1_pay1 (F := Ideal) x0 x1 (ix2 p q)
      = max (x0 (ix2 p q) + x1 (ix2 (0 : Fin 1) q)) (Ideal.ofBits .f32 0x00000000#32) := by
  unfold k1_pay1
  rw [shapeCast_self, shapeCast_self]
  refine (maximumf_apply _ _ (ix2 p q)).trans ?_
  refine congrArg₂ max ?_ rfl
  refine (addf_apply _ _ (ix2 p q)).trans ?_
  refine congrArg (x0 (ix2 p q) + ·) ?_
  exact broadcastTo_apply x1 broadcasts_S1x256_S2000x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])

/-- Entry (r, q) of the whole-array side: the array's entry (r, q) plus the bias at column q (the broadcast along
    rows reads row 0 of the [1,256] operand), clamped below at the same zero word (the scalar broadcast reads its one
    element everywhere). -/
theorem biasReluArray1_apply (A : FVec Ideal S50000x256 .f32) (B : FVec Ideal S1x256 .f32) (r : Fin 50000) (q : Fin 256) :
    maximumf (F := Ideal) (addf (F := Ideal) A (broadcastInDim Cert.ReferenceIdeal.S50000x256 ![0, 1] Cert.ReferenceIdeal.Gen.bcast_S1x256_S50000x256_0_1 B))
          (broadcastInDim Cert.ReferenceIdeal.S50000x256 ![] Cert.ReferenceIdeal.Gen.bcast_S_S50000x256 (constant (F := Ideal) Cert.ReferenceIdeal.S_ .f32 0x00000000#32)) (ix2 r q)
      = max (A (ix2 r q) + B (ix2 (0 : Fin 1) q)) (Ideal.ofBits .f32 0x00000000#32) := by
  refine (maximumf_apply _ _ (ix2 r q)).trans ?_
  refine congrArg₂ max ?_ ?_
  · refine (addf_apply _ _ (ix2 r q)).trans ?_
    refine congrArg (A (ix2 r q) + ·) ?_
    exact broadcastInDim_apply _ Cert.ReferenceIdeal.Gen.bcast_S1x256_S50000x256_0_1 B (ix2 r q) (ix2 (0 : Fin 1) q) (fun a => match a with
      | ⟨0, _⟩ => by show 0 = if (1 : Nat) = 1 then 0 else _; rw [if_pos rfl]
      | ⟨1, _⟩ => by show q.val = if (256 : Nat) = 1 then 0 else q.val; rw [if_neg (by decide)])
  · refine (broadcastInDim_apply _ Cert.ReferenceIdeal.Gen.bcast_S_S50000x256 (constant (F := Ideal) Cert.ReferenceIdeal.S_ .f32 0x00000000#32) (ix2 r q) (fun a => a.elim0) (fun a => a.elim0)).trans ?_
    exact constant_apply _ _

/-! ## Where each window's block lies in its array -/

/-- The printed index maps over the 25 grid points: the input and output blocks are block-row t, the bias block is
    the one block of its array. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the input block at point t is the input array's entry at row 2000 t + p, column q: on each axis
    the array coordinate is block index × block size + the coordinate inside the block. -/
theorem inputBlock1_apply (c : Dev nD) (t : Fin cfg1.N) (p : Fin 2000) (q : Fin 256) (r : Fin 50000)
    (hr : r.val = 2000 * t.val + p.val) :
    (iblk1 (F := Ideal) V c 0 t : Vec Ideal S2000x256 .f32) (ix2 p q) = (V c main_v43 : S50000x256.Idx → Elt Ideal .f32) (ix2 r q) := by
  obtain ⟨e0, e1, -⟩ := blockIndex1 t
  unfold iblk1
  rw [View.read_apply]
  show V c main_v43 _ = V c main_v43 _
  refine congrArg (V c main_v43) ?_
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * q.val = q.val; rw [e1]; omega

/-- The bias block at every point is the whole [1,256] bias row: block index (0, 0). -/
theorem biasBlock1_apply (c : Dev nD) (t : Fin cfg1.N) (q : Fin 256) :
    (iblk1 (F := Ideal) V c 1 t : Vec Ideal S1x256 .f32) (ix2 (0 : Fin 1) q) = (V c main_v44 : S1x256.Idx → Elt Ideal .f32) (ix2 (0 : Fin 1) q) := by
  obtain ⟨-, -, e2, e3, -⟩ := blockIndex1 t
  unfold iblk1
  rw [View.read_apply]
  show V c main_v44 _ = V c main_v44 _
  refine congrArg (V c main_v44) ?_
  funext a
  apply Fin.ext
  match a with
  | ⟨0, _⟩ => show win1_1.index t (0 : Fin 2) * 1 + 1 * 0 = 0; rw [e2]
  | ⟨1, _⟩ => show win1_1.index t (1 : Fin 2) * 256 + 1 * q.val = q.val; rw [e3]; omega

/-- Entry (p, q) of the output block at point t sits in the output array at row 2000 t + p, column q. -/
theorem outputBlock1_emb (t : Fin cfg1.N) (p : Fin 2000) (q : Fin 256) (r : Fin 50000)
    (hr : r.val = 2000 * t.val + p.val) :
    ((cfg1.win 2).blk t).view.emb (ix2 p q) = (ix2 r q : S50000x256.Idx) := by
  obtain ⟨-, -, -, -, e4, e5⟩ := blockIndex1 t
  funext a
  apply Fin.ext
  match a with
  | ⟨0, _⟩ => show win1_2.index t (0 : Fin 2) * 2000 + 1 * p.val = r.val; rw [e4, hr]; omega
  | ⟨1, _⟩ => show win1_2.index t (1 : Fin 2) * 256 + 1 * q.val = q.val; rw [e5]; omega

/-! ## From the blocks to the array -/

/-- What point t writes back is block-row t of the bias-add-and-clamp of the whole input array: entry (p, q) of the
    body's result is max (input (2000 t + p, q) + bias (0, q)) 0, which is the whole-array expression at the place
    that entry lands. -/
theorem written1_eq (c : Dev nD) (t : Fin cfg1.N) :
    (dat1 (F := Ideal) V c).flushed 2 t
      = ((cfg1.win 2).blk t).view.read (Elt Ideal)
          (maximumf (F := Ideal) (addf (F := Ideal) (V c main_v43) (broadcastInDim Cert.ReferenceIdeal.S50000x256 ![0, 1] Cert.ReferenceIdeal.Gen.bcast_S1x256_S50000x256_0_1 (V c main_v44)))
            (broadcastInDim Cert.ReferenceIdeal.S50000x256 ![] Cert.ReferenceIdeal.Gen.bcast_S_S50000x256 (constant (F := Ideal) Cert.ReferenceIdeal.S_ .f32 0x00000000#32))) := by
  show (cfg1.win 2).cut (grid1.coords t) ((dat1 (F := Ideal) V c).after 2 t) = _
  rw [after1_2]
  unfold out1_2
  rw [View.canon_unit_zero origin_eq_zero1]
  simp only [View.ld_unit_zero (S := S2000x256) origin_eq_zero1, View.ld_unit_zero (S := S1x256) origin_eq_zero1]
  funext j
  obtain ⟨p, q, rfl⟩ : ∃ (p : Fin 2000) (q : Fin 256), j = ix2 p q := ⟨j 0, j 1, eq_ix2 j⟩
  have ht : t.val < 25 := t.isLt
  have hp : p.val < 2000 := p.isLt
  rw [View.read_apply, outputBlock1_emb t p q ⟨2000 * t.val + p.val, by omega⟩ rfl, biasReluArray1_apply]
  show k1_pay1 (F := Ideal) (iblk1 V c 0 t) (iblk1 V c 1 t) (ix2 p q) = _
  rw [biasReluBlock1_apply, inputBlock1_apply V c t p q ⟨2000 * t.val + p.val, by omega⟩ rfl, biasBlock1_apply V c t q]
  rfl

/-- An index of the output array is in point t's block iff each coordinate is in the block's range on its axis. -/
theorem mem_outputBlock1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- The 25 block-rows of 2000 rows tile the 50000 rows: row r is in the block of point r / 2000, and every point
    writes back. -/
theorem rows_covered1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : (i 0).val / 2000 < cfg1.N := by show (i 0).val / 2000 < 25; omega
  refine ⟨⟨(i 0).val / 2000, hN⟩, flush1_2 _, ?_⟩
  rw [mem_outputBlock1]
  obtain ⟨-, -, -, -, e4, e5⟩ := blockIndex1 ⟨(i 0).val / 2000, hN⟩
  intro a
  match a with
  | ⟨0, _⟩ =>
    show win1_2.index ⟨(i 0).val / 2000, hN⟩ (0 : Fin 2) * 2000 ≤ (i 0).val ∧ (i 0).val < win1_2.index ⟨(i 0).val / 2000, hN⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, hN⟩ (1 : Fin 2) * 256 ≤ (i 1).val ∧ (i 1).val < win1_2.index ⟨(i 0).val / 2000, hN⟩ (1 : Fin 2) * 256 + 256
    rw [e5]
    omega

theorem region1 (c : Dev nD) :
    (dat1 (F := Ideal) V c).arrAt 2 cfg1.N
      = maximumf (F := Ideal) (addf (F := Ideal) (V c main_v43) (broadcastInDim Cert.ReferenceIdeal.S50000x256 ![0, 1] Cert.ReferenceIdeal.Gen.bcast_S1x256_S50000x256_0_1 (V c main_v44)))
          (broadcastInDim Cert.ReferenceIdeal.S50000x256 ![] Cert.ReferenceIdeal.Gen.bcast_S_S50000x256 (constant (F := Ideal) Cert.ReferenceIdeal.S_ .f32 0x00000000#32)) := by
  exact (dat1 (F := Ideal) V c).arrAt_eq_of_cover 2 _ (fun t _ => written1_eq V c t) rows_covered1

end Cert.KernelIdeal.RegionValue

end
-- ==== Proof.RegionMatmul2.lean ====
import proofs.«138582_j1915555414201_1_alg».proof.Proof.Gen.KernelIdeal.Frame
import proofs.«138582_j1915555414201_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

namespace Matmul2

/-! ## The block product's operand indices -/

/-- Left operand of the second layer's block product, row axis: the output's row. -/
theorem blockDot_lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Left operand, column axis: the contraction index. -/
theorem blockDot_lhs_col (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- Right operand, row axis: the contraction index. -/
theorem blockDot_rhs_row (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- Right operand, column axis: the output's column. -/
theorem blockDot_rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of the body's block product: the sum over the 256 contraction positions of the left block's row p
    times the right block's column q (the cast of the left block to its own shape and the narrowing to bf16 are the
    identity on ideal values, the accumulator is zero). -/
theorem blockProduct_apply (xb : Vec Ideal S2000x256 .f32) (wb : Vec Ideal S256x256 .f32) (p : Fin 2000) (q : Fin 256) :
    k2_pay1 (F := Ideal) xb wb (ValueIdx.ix2 p q) = ∑ k : Fin 256, xb (ValueIdx.ix2 p k) * wb (ValueIdx.ix2 k q) := by
  unfold k2_pay1
  refine (Ideal.matmul_constant_zero_apply dot_S2000x256_S256x256_S2000x256_1_0_0_1_n_n none _ _ (ValueIdx.ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ValueIdx.ix2 p q) ((ValueIdx.contrEquiv1 dot_S2000x256_S256x256_S2000x256_1_0_0_1_n_n 256 rfl rfl).symm k) = ValueIdx.ix2 p k := funext fun a => Fin.ext (by
    match a with
    | ⟨0, _⟩ => exact blockDot_lhs_row _ _
    | ⟨1, _⟩ => exact (blockDot_lhs_col _ _).trans hk)
  have er : dot_S2000x256_S256x256_S2000x256_1_0_0_1_n_n.rhsIdx (ValueIdx.ix2 p q) ((ValueIdx.contrEquiv1 dot_S2000x256_S256x256_S2000x256_1_0_0_1_n_n 256 rfl rfl).symm k) = ValueIdx.ix2 k q := funext fun a => Fin.ext (by
    match a with
    | ⟨0, _⟩ => exact (blockDot_rhs_row _ _).trans hk
    | ⟨1, _⟩ => exact blockDot_rhs_col _ _)
  rw [ValueIdx.truncf_apply, ValueIdx.truncf_apply, el, er, shapeCast_self]

/-! ## The whole product's operand indices -/

/-- Left operand of the whole second-layer product, row axis: the output's row. -/
theorem wholeDot_lhs_row (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x256_S50000x256_1_0_0_1_n_n.lhsBatch by decide), dif_pos (show (0 : Fin Cert.ReferenceIdeal.S50000x256.rank) ∈ Cert.ReferenceIdeal.dot_S50000x256_S256x256_S50000x256_1_0_0_1_n_n.lhsNonContracting by decide)]
  rfl
/-- Left operand, column axis: the contraction index. -/
theorem wholeDot_lhs_col (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.lhsIdx i q 1).val = (q ⟨0, by decide⟩).val :=
  Cert.ReferenceIdeal.dot_S50000x256_S256x256_S50000x256_1_0_0_1_n_n.lhsIdx_val_of_single rfl i q
/-- Right operand, row axis: the contraction index. -/
theorem wholeDot_rhs_row (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 0).val = (q ⟨0, by decide⟩).val :=
  Cert.ReferenceIdeal.dot_S50000x256_S256x256_S50000x256_1_0_0_1_n_n.rhsIdx_val_of_single rfl i q
/-- Right operand, column axis: the output's column. -/
theorem wholeDot_rhs_col (i : Cert.ReferenceIdeal.S50000x256.Idx) (q : Cert.ReferenceIdeal.dot_S50000x256_S256x256_S50000x256_1_0_0_1_n_n.contr.Idx) :
    (Cert.ReferenceIdeal.dot_S50000x256_S256x256_S50000x256_1_0_0_1_n_n.rhsIdx i q 1).val = (i 1).val := by
  unfold DotDims.rhsIdx
  rw [dif_neg (show ¬(1 : Fin Cert.ReferenceIdeal.S256x256.rank) ∈ Cert.ReferenceIdeal.dot_S50000x256_S256x256_S50000x256_1_0_0_1_n_n.rhsBatch by decide), dif_pos (show (1 : Fin Cert.ReferenceIdeal.S256x256.rank) ∈ Cert.ReferenceIdeal.dot_S50000x256_S256x256_S50000x256_1_0_0_1_n_n.rhsNonContracting by decide)]
  rfl

/-- Entry (r, q) of the whole second-layer product: the sum over the 256 contraction positions of the left operand's
    row r times the right operand's column q. -/
theorem wholeProduct_apply (X : FVec Ideal Cert.ReferenceIdeal.S50000x256 .f32) (W : FVec Ideal Cert.ReferenceIdeal.S256x256 .f32) (r : Fin 50000) (q : Fin 256) :
    Host.dotGeneral (F := Ideal) (φ₁ := .f32) (φ₂ := .f32) Cert.ReferenceIdeal.dot_S50000x256_S256x256_S50000x256_1_0_0_1_n_n none X W (ValueIdx.ix2 r q)
      = ∑ k : Fin 256, X (ValueIdx.ix2 r k) * W (ValueIdx.ix2 k q) := by
  simp only [Host.dotGeneral]
  rw [Ideal.dotGeneral_apply, ← Equiv.sum_comp (ValueIdx.contrEquiv1 Cert.ReferenceIdeal.dot_S50000x256_S256x256_S50000x256_1_0_0_1_n_n 256 rfl rfl).symm]
  refine Finset.sum_congr rfl fun k _ => ?_
  have hk := ValueIdx.contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ValueIdx.ix2 r q) ((ValueIdx.contrEquiv1 Cert.ReferenceIdeal.dot_S50000x256_S256x256_S50000x256_1_0_0_1_n_n 256 rfl rfl).symm k) = ValueIdx.ix2 r k := funext fun a => Fin.ext (by
    match a with
    | ⟨0, _⟩ => exact wholeDot_lhs_row _ _
    | ⟨1, _⟩ => exact (wholeDot_lhs_col _ _).trans hk)
  have er : Cert.ReferenceIdeal.dot_S50000x256_S256x256_S50000x256_1_0_0_1_n_n.rhsIdx (ValueIdx.ix2 r q) ((ValueIdx.contrEquiv1 Cert.ReferenceIdeal.dot_S50000x256_S256x256_S50000x256_1_0_0_1_n_n 256 rfl rfl).symm k) = ValueIdx.ix2 k q := funext fun a => Fin.ext (by
    match a with
    | ⟨0, _⟩ => exact (wholeDot_rhs_row _ _).trans hk
    | ⟨1, _⟩ => exact wholeDot_rhs_col _ _)
  rw [el, er]

/-- Block against whole, entry by entry: when the left block's rows are rows tv·2000 … tv·2000 + 1999 of the whole left
    operand and the right block is the whole right operand, entry j of the block product is the whole product's entry
    at the same column and at row tv·2000 + (row of j) — the two sums run over the same 256 products. -/
theorem blockProduct_eq_wholeProduct (xb : Vec Ideal S2000x256 .f32) (wb : Vec Ideal S256x256 .f32)
    (X : FVec Ideal Cert.ReferenceIdeal.S50000x256 .f32) (W : FVec Ideal Cert.ReferenceIdeal.S256x256 .f32) (tv : Nat)
    (hx : ∀ (x : S2000x256.Idx) (y : Cert.ReferenceIdeal.S50000x256.Idx), (y 0).val = tv * 2000 + (x 0).val → (y 1).val = (x 1).val → xb x = X y)
    (hw : ∀ z : S256x256.Idx, wb z = W z)
    (j : S2000x256.Idx) (i : Cert.ReferenceIdeal.S50000x256.Idx) (hi0 : (i 0).val = tv * 2000 + (j 0).val) (hi1 : (i 1).val = (j 1).val) :
    k2_pay1 (F := Ideal) xb wb j
      = Host.dotGeneral (F := Ideal) (φ₁ := .f32) (φ₂ := .f32) Cert.ReferenceIdeal.dot_S50000x256_S256x256_S50000x256_1_0_0_1_n_n none X W i := by
  obtain ⟨p, q, rfl⟩ : ∃ (p : Fin 2000) (q : Fin 256), j = ValueIdx.ix2 p q := ⟨j 0, j 1, ValueIdx.eq_ix2 j⟩
  obtain ⟨r, s, rfl⟩ : ∃ (r : Fin 50000) (s : Fin 256), i = ValueIdx.ix2 r s := ⟨i 0, i 1, ValueIdx.eq_ix2 i⟩
  obtain rfl : s = q := Fin.ext hi1
  rw [blockProduct_apply, wholeProduct_apply]
  refine Finset.sum_congr rfl fun k _ => ?_
  rw [hx (ValueIdx.ix2 p k) (ValueIdx.ix2 r k) hi0 rfl, hw]

/-! ## The windows' blocks inside their arrays -/

theorem zero_offsets : (![0, 0] : Fin 2 → Nat) = fun _ => 0 := funext fun a => by fin_cases a <;> rfl

/-- The printed index maps over the 25 grid points: the left operand's and the output's block index is (t, 0), the
    right operand's is (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block of the output is some grid point's. -/
theorem block_index_onto : ∀ b : Fin 25, ∃ t : Fin cfg2.N, win2_2.index t (0 : Fin 2) = b.val ∧ win2_2.index t (1 : Fin 2) = 0 :=
  (by decide +kernel : ∀ b : Fin 25, ∃ t : Fin grid2.N, win2_2.index t (0 : Fin 2) = b.val ∧ win2_2.index t (1 : Fin 2) = 0)

/-- The left operand's block at point t is rows 2000·t … 2000·t + 1999 of the first layer's output, all 256 columns. -/
theorem leftBlock_apply (c : Dev nD) (t : Fin cfg2.N) (x : S2000x256.Idx) (y : S50000x256.Idx)
    (h0 : (y 0).val = t.val * 2000 + (x 0).val) (h1 : (y 1).val = (x 1).val) :
    (iblk2 (F := Ideal) V c 0 t : Vec Ideal S2000x256 .f32) x = (V c main_v45 : S50000x256.Idx → Elt Ideal .f32) y := by
  obtain ⟨e00, e01, -⟩ := block_indices t
  unfold iblk2
  rw [View.read_apply]
  show V c main_v45 _ = V c main_v45 _
  congr 1
  funext a
  apply Fin.ext
  match a with
  | ⟨0, _⟩ => show win2_0.index t (0 : Fin 2) * 2000 + 1 * (x 0).val = (y 0).val; rw [e00, h0]; omega
  | ⟨1, _⟩ => show win2_0.index t (1 : Fin 2) * 256 + 1 * (x 1).val = (y 1).val; rw [e01, h1]; omega

/-- The right operand's block at every point is the whole second-layer weight matrix. -/
theorem rightBlock_apply (c : Dev nD) (t : Fin cfg2.N) (z : S256x256.Idx) :
    (iblk2 (F := Ideal) V c 1 t : Vec Ideal S256x256 .f32) z = (V c main_arg4 : S256x256.Idx → Elt Ideal .f32) z := by
  obtain ⟨-, -, e10, e11, -⟩ := block_indices t
  unfold iblk2
  rw [View.read_apply]
  show V c main_arg4 _ = V c main_arg4 _
  congr 1
  funext a
  apply Fin.ext
  match a with
  | ⟨0, _⟩ => show win2_1.index t (0 : Fin 2) * 256 + 1 * (z 0).val = (z 0).val; rw [e10]; omega
  | ⟨1, _⟩ => show win2_1.index t (1 : Fin 2) * 256 + 1 * (z 1).val = (z 1).val; rw [e11]; omega

/-! ## What a point writes back, and the cover -/

/-- What point t writes back is block t of the whole product of the two operand arrays. -/
theorem flushed_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S50000x256_S256x256_S50000x256_1_0_0_1_n_n none (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S2000x256) zero_offsets, View.ld_unit_zero (S := S256x256) zero_offsets]
  obtain ⟨-, -, -, -, e20, e21⟩ := block_indices t
  funext j
  refine blockProduct_eq_wholeProduct (iblk2 (F := Ideal) V c 0 t) (iblk2 (F := Ideal) V c 1 t) (V c main_v45) (V c main_arg4) t.val
    (fun x y h0 h1 => leftBlock_apply V c t x y h0 h1) (fun z => rightBlock_apply V c t z)
    ((cfg2.win 2).xinj (grid2.coords t) j) (((cfg2.win 2).blk t).view.emb j) ?_ ?_
  · show win2_2.index t (0 : Fin 2) * 2000 + 1 * (j 0).val = t.val * 2000 + (j 0).val
    rw [e20]; omega
  · show win2_2.index t (1 : Fin 2) * 256 + 1 * (j 1).val = (j 1).val
    rw [e21]; omega

/-- An index of the output array is in point t's block iff each coordinate is in the block's range on its axis. -/
theorem mem_block (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v46).slice (win2_2.rect t)).set ↔ _
  rw [View.set_slice_whole, Rect.mem_set_unit]
  exact Iff.rfl

/-- Row r of the output lies in the block of the point whose block index is r / 2000; the 256 columns are one block. -/
theorem covered (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, q0, q1⟩ := block_index_onto ⟨(i 0).val / 2000, by omega⟩
  have q0' : win2_2.index t (0 : Fin 2) = (i 0).val / 2000 := q0
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

end Matmul2

/-- The output array after the region is the whole product: every point writes back its block of it, and the blocks
    cover the array. -/
theorem region2 (c : Dev nD) :
    (dat2 (F := Ideal) V c).arrAt 2 cfg2.N
      = Host.dotGeneral (F := Ideal) (φ₁ := .f32) (φ₂ := .f32) Cert.ReferenceIdeal.dot_S50000x256_S256x256_S50000x256_1_0_0_1_n_n none (V c main_v45) (V c main_arg4) := by
  exact (dat2 (F := Ideal) V c).arrAt_eq_of_cover 2 _ (fun t _ => Matmul2.flushed_eq V c t) Matmul2.covered

end Cert.KernelIdeal.RegionValue

end
-- ==== Proof.RegionBiasRelu3.lean ====
/- Region 3 of the two-layer graph convolution: the second bias-add-and-clamp. Over a grid of 25 points the body takes
   a block of 2000 rows of the [50000,256] input and the whole [1,256] bias row of the second layer, adds the bias to
   every row and clamps below at zero, and writes the block back. Proved here: after the 25 write-backs the output
   array is ONE function of the region's input arrays, max (input + bias broadcast along rows) 0, entry by entry. -/
import proofs.«138582_j1915555414201_1_alg».proof.Proof.Gen.KernelIdeal.Frame
import proofs.«138582_j1915555414201_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

open Idealize.ShloMosaic.ValueIdx

/-! ## One entry of a block, one entry of the array -/

/-- The body loads and stores its whole staging buffers: the accesses' offsets are zero on both axes. -/
theorem origin_eq_zero3 : (![0, 0] : Fin 2 → Nat) = fun _ => 0 := funext fun a => by fin_cases a <;> rfl

/-- Entry (p, q) of the second layer's stored block: the input block's entry (p, q) plus the bias row's entry at
    column q (both shape casts keep the shape; the broadcast of the one-row operand reads its row 0), the larger of
    that sum and the zero word. -/
theorem biasReluBlock3_apply (x0 : Vec Ideal S2000x256 .f32) (x1 : Vec Ideal S1x256 .f32) (p : Fin 2000) (q : Fin 256) :
    k3_pay1 (F := Ideal) x0 x1 (ix2 p q)
      = max (x0 (ix2 p q) + x1 (ix2 (0 : Fin 1) q)) (Ideal.ofBits .f32 0x00000000#32) := by
  unfold k3_pay1
  rw [shapeCast_self, shapeCast_self]
  refine (maximumf_apply _ _ (ix2 p q)).trans ?_
  refine congrArg₂ max ?_ rfl
  refine (addf_apply _ _ (ix2 p q)).trans ?_
  refine congrArg (x0 (ix2 p q) + ·) ?_
  exact broadcastTo_apply x1 broadcasts_S1x256_S2000x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])

/-- Entry (r, q) of the whole-array expression: the array's entry (r, q) plus the bias at column q (broadcasting the
    [1,256] operand over the 50000 rows reads its row 0), the larger of that sum and the zero word (the broadcast
    scalar is its one element at every index). -/
theorem biasReluArray3_apply (A : FVec Ideal S50000x256 .f32) (B : FVec Ideal S1x256 .f32) (r : Fin 50000) (q : Fin 256) :
    maximumf (F := Ideal) (addf (F := Ideal) A (broadcastInDim Cert.ReferenceIdeal.S50000x256 ![0, 1] Cert.ReferenceIdeal.Gen.bcast_S1x256_S50000x256_0_1 B))
          (broadcastInDim Cert.ReferenceIdeal.S50000x256 ![] Cert.ReferenceIdeal.Gen.bcast_S_S50000x256 (constant (F := Ideal) Cert.ReferenceIdeal.S_ .f32 0x00000000#32)) (ix2 r q)
      = max (A (ix2 r q) + B (ix2 (0 : Fin 1) q)) (Ideal.ofBits .f32 0x00000000#32) := by
  refine (maximumf_apply _ _ (ix2 r q)).trans ?_
  refine congrArg₂ max ?_ ?_
  · refine (addf_apply _ _ (ix2 r q)).trans ?_
    refine congrArg (A (ix2 r q) + ·) ?_
    exact broadcastInDim_apply _ Cert.ReferenceIdeal.Gen.bcast_S1x256_S50000x256_0_1 B (ix2 r q) (ix2 (0 : Fin 1) q) (fun a => match a with
      | ⟨0, _⟩ => by show 0 = if (1 : Nat) = 1 then 0 else _; rw [if_pos rfl]
      | ⟨1, _⟩ => by show q.val = if (256 : Nat) = 1 then 0 else q.val; rw [if_neg (by decide)])
  · refine (broadcastInDim_apply _ Cert.ReferenceIdeal.Gen.bcast_S_S50000x256 (constant (F := Ideal) Cert.ReferenceIdeal.S_ .f32 0x00000000#32) (ix2 r q) (fun a => a.elim0) (fun a => a.elim0)).trans ?_
    exact constant_apply _ _

/-! ## Where each window's block lies in its array -/

/-- The three index maps at each of the 25 grid points: input and output take block-row t (block index (t, 0)), the
    bias window stays on its array's single block (block index (0, 0)). -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of the input block at point t is the input array's entry at row 2000 t + p, column q: a block's
    element sits, on each axis, at block index × block size + its coordinate inside the block. -/
theorem inputBlock3_apply (c : Dev nD) (t : Fin cfg3.N) (p : Fin 2000) (q : Fin 256) (r : Fin 50000)
    (hr : r.val = 2000 * t.val + p.val) :
    (iblk3 (F := Ideal) V c 0 t : Vec Ideal S2000x256 .f32) (ix2 p q) = (V c main_v59 : S50000x256.Idx → Elt Ideal .f32) (ix2 r q) := by
  obtain ⟨e0, e1, -⟩ := blockIndex3 t
  unfold iblk3
  rw [View.read_apply]
  show V c main_v59 _ = V c main_v59 _
  refine congrArg (V c main_v59) ?_
  funext a
  apply Fin.ext
  match a with
  | ⟨0, _⟩ => show win3_0.index t (0 : Fin 2) * 2000 + 1 * p.val = r.val; rw [e0, hr]; omega
  | ⟨1, _⟩ => show win3_0.index t (1 : Fin 2) * 256 + 1 * q.val = q.val; rw [e1]; omega

/-- At every point the bias block is the whole [1,256] bias row of the second layer. -/
theorem biasBlock3_apply (c : Dev nD) (t : Fin cfg3.N) (q : Fin 256) :
    (iblk3 (F := Ideal) V c 1 t : Vec Ideal S1x256 .f32) (ix2 (0 : Fin 1) q) = (V c main_v60 : S1x256.Idx → Elt Ideal .f32) (ix2 (0 : Fin 1) q) := by
  obtain ⟨-, -, e2, e3, -⟩ := blockIndex3 t
  unfold iblk3
  rw [View.read_apply]
  show V c main_v60 _ = V c main_v60 _
  refine congrArg (V c main_v60) ?_
  funext a
  apply Fin.ext
  match a with
  | ⟨0, _⟩ => show win3_1.index t (0 : Fin 2) * 1 + 1 * 0 = 0; rw [e2]
  | ⟨1, _⟩ => show win3_1.index t (1 : Fin 2) * 256 + 1 * q.val = q.val; rw [e3]; omega

/-- Entry (p, q) of the output block at point t lands in the output array at row 2000 t + p, column q. -/
theorem outputBlock3_emb (t : Fin cfg3.N) (p : Fin 2000) (q : Fin 256) (r : Fin 50000)
    (hr : r.val = 2000 * t.val + p.val) :
    ((cfg3.win 2).blk t).view.emb (ix2 p q) = (ix2 r q : S50000x256.Idx) := by
  obtain ⟨-, -, -, -, e4, e5⟩ := blockIndex3 t
  funext a
  apply Fin.ext
  match a with
  | ⟨0, _⟩ => show win3_2.index t (0 : Fin 2) * 2000 + 1 * p.val = r.val; rw [e4, hr]; omega
  | ⟨1, _⟩ => show win3_2.index t (1 : Fin 2) * 256 + 1 * q.val = q.val; rw [e5]; omega

/-! ## From the blocks to the array -/

/-- Point t writes back block-row t of the bias-add-and-clamp of the whole input array: the body's entry (p, q) is
    max (input (2000 t + p, q) + bias (0, q)) 0, and that is the whole-array expression at row 2000 t + p, column q,
    where the entry lands. -/
theorem written3_eq (c : Dev nD) (t : Fin cfg3.N) :
    (dat3 (F := Ideal) V c).flushed 2 t
      = ((cfg3.win 2).blk t).view.read (Elt Ideal)
          (maximumf (F := Ideal) (addf (F := Ideal) (V c main_v59) (broadcastInDim Cert.ReferenceIdeal.S50000x256 ![0, 1] Cert.ReferenceIdeal.Gen.bcast_S1x256_S50000x256_0_1 (V c main_v60)))
            (broadcastInDim Cert.ReferenceIdeal.S50000x256 ![] Cert.ReferenceIdeal.Gen.bcast_S_S50000x256 (constant (F := Ideal) Cert.ReferenceIdeal.S_ .f32 0x00000000#32))) := by
  show (cfg3.win 2).cut (grid3.coords t) ((dat3 (F := Ideal) V c).after 2 t) = _
  rw [after3_2]
  unfold out3_2
  rw [View.canon_unit_zero origin_eq_zero3]
  simp only [View.ld_unit_zero (S := S2000x256) origin_eq_zero3, View.ld_unit_zero (S := S1x256) origin_eq_zero3]
  funext j
  obtain ⟨p, q, rfl⟩ : ∃ (p : Fin 2000) (q : Fin 256), j = ix2 p q := ⟨j 0, j 1, eq_ix2 j⟩
  have ht : t.val < 25 := t.isLt
  have hp : p.val < 2000 := p.isLt
  rw [View.read_apply, outputBlock3_emb t p q ⟨2000 * t.val + p.val, by omega⟩ rfl, biasReluArray3_apply]
  show k3_pay1 (F := Ideal) (iblk3 V c 0 t) (iblk3 V c 1 t) (ix2 p q) = _
  rw [biasReluBlock3_apply, inputBlock3_apply V c t p q ⟨2000 * t.val + p.val, by omega⟩ rfl, biasBlock3_apply V c t q]
  rfl

/-- An index of the output array lies in point t's block iff, on each axis, its coordinate is within the block's
    range there. -/
theorem mem_outputBlock3 (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v61).slice (win3_2.rect t)).set ↔ _
  rw [View.set_slice_whole, Rect.mem_set_unit]
  exact Iff.rfl

/-- The 50000 rows are the 25 block-rows of 2000: row r belongs to the block of point r / 2000, and every point
    writes its block back. -/
theorem rows_covered3 (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : (i 0).val / 2000 < cfg3.N := by show (i 0).val / 2000 < 25; omega
  refine ⟨⟨(i 0).val / 2000, hN⟩, flush3_2 _, ?_⟩
  rw [mem_outputBlock3]
  obtain ⟨-, -, -, -, e4, e5⟩ := blockIndex3 ⟨(i 0).val / 2000, hN⟩
  intro a
  match a with
  | ⟨0, _⟩ =>
    show win3_2.index ⟨(i 0).val / 2000, hN⟩ (0 : Fin 2) * 2000 ≤ (i 0).val ∧ (i 0).val < win3_2.index ⟨(i 0).val / 2000, hN⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, hN⟩ (1 : Fin 2) * 256 ≤ (i 1).val ∧ (i 1).val < win3_2.index ⟨(i 0).val / 2000, hN⟩ (1 : Fin 2) * 256 + 256
    rw [e5]
    omega

theorem region3 (c : Dev nD) :
    (dat3 (F := Ideal) V c).arrAt 2 cfg3.N
      = maximumf (F := Ideal) (addf (F := Ideal) (V c main_v59) (broadcastInDim Cert.ReferenceIdeal.S50000x256 ![0, 1] Cert.ReferenceIdeal.Gen.bcast_S1x256_S50000x256_0_1 (V c main_v60)))
          (broadcastInDim Cert.ReferenceIdeal.S50000x256 ![] Cert.ReferenceIdeal.Gen.bcast_S_S50000x256 (constant (F := Ideal) Cert.ReferenceIdeal.S_ .f32 0x00000000#32)) := by
  exact (dat3 (F := Ideal) V c).arrAt_eq_of_cover 2 _ (fun t _ => written3_eq V c t) rows_covered3

end Cert.KernelIdeal.RegionValue

end
-- ==== Proof.Fold.lean ====
/-
  The kernel's program read from its launch memory to its result, at the ideal instance, one boundary at a time.

  Every buffer the later stages read is named as the reference's stage of the arguments: the edge arrays from the
  first region's entry on (no region and no later host operation writes them), each matmul region's array as the
  reference's dot product (a row block of a product is the product's rows), each bias region's array as the
  reference's bias-add clamped below at zero, each aggregate by the shared chain. At the last boundary the result
  buffer holds the reference's result of the same arguments.
-/
import proofs.«138582_j1915555414201_1_alg».proof.Proof.HostFold
import proofs.«138582_j1915555414201_1_alg».proof.Proof.RegionMatmul0
import proofs.«138582_j1915555414201_1_alg».proof.Proof.RegionBiasRelu1
import proofs.«138582_j1915555414201_1_alg».proof.Proof.RegionMatmul2
import proofs.«138582_j1915555414201_1_alg».proof.Proof.RegionBiasRelu3

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.KernelIdeal.HostFold Cert.KernelIdeal.RegionValue
open Cert.ReferenceIdeal.ReadP

variable (m : (ℓ : Loc nD τ sig) → Buf (Elt Ideal) ℓ) (ρ : Dev nD → PrngReg) (c : Dev nD)

/-! ## After the first matmul region -/

/-- The first region leaves the first layer's projection: the features times the first weight matrix. -/
theorem projection1 :
    W4 m ρ c (Proc.devRef .tc main_v30) = val_main_v30 (F := Ideal) (m ((c : Thread nD τ).loc main_arg0)) (m ((c : Thread nD τ).loc main_arg2)) := by
  refine (W4_arr m ρ c 2).trans ((region0 (V3 m ρ) c).trans ?_)
  show Host.dotGeneral (F := Ideal) (φ₁ := .f32) (φ₂ := .f32) Cert.ReferenceIdeal.dot_S50000x128_S128x256_S50000x256_1_0_0_1_n_n none
    (W3 m ρ c (Proc.devRef .tc main_arg0)) (W3 m ρ c (Proc.devRef .tc main_arg2)) = _
  rw [(entry_args m ρ c).1, (entry_args m ρ c).2.1]
  rfl

/-- It writes no edge array and no argument. -/
theorem after_region0 :
    W4 m ρ c (Proc.devRef .tc main_v3) = val_main_v3 (F := Ideal) (m ((c : Thread nD τ).loc main_arg1))
    ∧ W4 m ρ c (Proc.devRef .tc main_v6) = val_main_v6 (F := Ideal) (m ((c : Thread nD τ).loc main_arg1))
    ∧ W4 m ρ c (Proc.devRef .tc main_v29) = val_main_v29 (F := Ideal) (m ((c : Thread nD τ).loc main_arg1))
    ∧ W4 m ρ c (Proc.devRef .tc main_arg3) = (m ((c : Thread nD τ).loc main_arg3))
    ∧ W4 m ρ c (Proc.devRef .tc main_arg4) = (m ((c : Thread nD τ).loc main_arg4))
    ∧ W4 m ρ c (Proc.devRef .tc main_arg5) = (m ((c : Thread nD τ).loc main_arg5)) :=
  ⟨(W4_of_ne m ρ c main_v3 (by decide)).trans (entry_src m ρ c),
   (W4_of_ne m ρ c main_v6 (by decide)).trans (entry_dst m ρ c),
   (W4_of_ne m ρ c main_v29 (by decide)).trans (entry_weight m ρ c),
   (W4_of_ne m ρ c main_arg3 (by decide)).trans (entry_args m ρ c).2.2.1,
   (W4_of_ne m ρ c main_arg4 (by decide)).trans (entry_args m ρ c).2.2.2.1,
   (W4_of_ne m ρ c main_arg5 (by decide)).trans (entry_args m ρ c).2.2.2.2⟩

/-! ## After the stretch that aggregates the first layer -/

/-- The first layer's aggregate is the reference's. -/
theorem aggregate1 :
    W5 m ρ c (Proc.devRef .tc main_v43) = val_main_v43 (F := Ideal) (m ((c : Thread nD τ).loc main_arg0)) (m ((c : Thread nD τ).loc main_arg1)) (m ((c : Thread nD τ).loc main_arg2)) := by
  refine (stretch1_aggregate (W4 m ρ c)).trans ?_
  rw [(after_region0 m ρ c).1, (after_region0 m ρ c).2.1, (after_region0 m ρ c).2.2.1, projection1 m ρ c]
  exact (ref_aggregate1 _ _ _).symm

/-- The first bias as a row is the reference's. -/
theorem biasRow1 :
    W5 m ρ c (Proc.devRef .tc main_v44) = val_main_v44 (F := Ideal) (m ((c : Thread nD τ).loc main_arg3)) := by
  refine (stretch1_bias (W4 m ρ c)).trans ?_
  rw [(after_region0 m ρ c).2.2.2.1]
  exact bias_row _

theorem after_stretch1 :
    W5 m ρ c (Proc.devRef .tc main_v3) = val_main_v3 (F := Ideal) (m ((c : Thread nD τ).loc main_arg1))
    ∧ W5 m ρ c (Proc.devRef .tc main_v6) = val_main_v6 (F := Ideal) (m ((c : Thread nD τ).loc main_arg1))
    ∧ W5 m ρ c (Proc.devRef .tc main_v29) = val_main_v29 (F := Ideal) (m ((c : Thread nD τ).loc main_arg1))
    ∧ W5 m ρ c (Proc.devRef .tc main_arg4) = (m ((c : Thread nD τ).loc main_arg4))
    ∧ W5 m ρ c (Proc.devRef .tc main_arg5) = (m ((c : Thread nD τ).loc main_arg5)) :=
  ⟨(stretch1_keeps (W4 m ρ c)).1.trans (after_region0 m ρ c).1,
   (stretch1_keeps (W4 m ρ c)).2.1.trans (after_region0 m ρ c).2.1,
   (stretch1_keeps (W4 m ρ c)).2.2.1.trans (after_region0 m ρ c).2.2.1,
   (stretch1_keeps (W4 m ρ c)).2.2.2.1.trans (after_region0 m ρ c).2.2.2.2.1,
   (stretch1_keeps (W4 m ρ c)).2.2.2.2.trans (after_region0 m ρ c).2.2.2.2.2⟩

/-! ## After the first bias region -/

/-- The second region leaves the first layer's output: the aggregate plus the bias, clamped below at zero. -/
theorem hidden :
    W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((region1 (V5 m ρ) c).trans ?_)
  show maximumf (F := Ideal) (addf (F := Ideal) (W5 m ρ c (Proc.devRef .tc main_v43))
      (broadcastInDim Cert.ReferenceIdeal.S50000x256 ![0, 1] Cert.ReferenceIdeal.Gen.bcast_S1x256_S50000x256_0_1 (W5 m ρ c (Proc.devRef .tc main_v44))))
    (broadcastInDim Cert.ReferenceIdeal.S50000x256 ![] Cert.ReferenceIdeal.Gen.bcast_S_S50000x256 (constant (F := Ideal) Cert.ReferenceIdeal.S_ .f32 0x00000000#32)) = _
  rw [aggregate1 m ρ c, biasRow1 m ρ c]
  unfold val_main_v47 val_main_v46 val_main_v45 val_main_call1_v0 val_main_call1_cst
  rfl

theorem after_region1 :
    W6 m ρ c (Proc.devRef .tc main_v3) = val_main_v3 (F := Ideal) (m ((c : Thread nD τ).loc main_arg1))
    ∧ W6 m ρ c (Proc.devRef .tc main_v6) = val_main_v6 (F := Ideal) (m ((c : Thread nD τ).loc main_arg1))
    ∧ W6 m ρ c (Proc.devRef .tc main_v29) = val_main_v29 (F := Ideal) (m ((c : Thread nD τ).loc main_arg1))
    ∧ W6 m ρ c (Proc.devRef .tc main_arg4) = (m ((c : Thread nD τ).loc main_arg4))
    ∧ W6 m ρ c (Proc.devRef .tc main_arg5) = (m ((c : Thread nD τ).loc main_arg5)) :=
  ⟨(W6_of_ne m ρ c main_v3 (by decide)).trans (after_stretch1 m ρ c).1,
   (W6_of_ne m ρ c main_v6 (by decide)).trans (after_stretch1 m ρ c).2.1,
   (W6_of_ne m ρ c main_v29 (by decide)).trans (after_stretch1 m ρ c).2.2.1,
   (W6_of_ne m ρ c main_arg4 (by decide)).trans (after_stretch1 m ρ c).2.2.2.1,
   (W6_of_ne m ρ c main_arg5 (by decide)).trans (after_stretch1 m ρ c).2.2.2.2⟩

/-! ## After the second matmul region -/

/-- The third region leaves the second layer's projection: the first layer's output times the second weight matrix. -/
theorem projection2 :
    W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((region2 (V6 m ρ) c).trans ?_)
  show Host.dotGeneral (F := Ideal) (φ₁ := .f32) (φ₂ := .f32) Cert.ReferenceIdeal.dot_S50000x256_S256x256_S50000x256_1_0_0_1_n_n none
    (W6 m ρ c (Proc.devRef .tc main_v45)) (W6 m ρ c (Proc.devRef .tc main_arg4)) = _
  rw [hidden m ρ c, (after_region1 m ρ c).2.2.2.1]
  rfl

theorem after_region2 :
    W7 m ρ c (Proc.devRef .tc main_v3) = val_main_v3 (F := Ideal) (m ((c : Thread nD τ).loc main_arg1))
    ∧ W7 m ρ c (Proc.devRef .tc main_v6) = val_main_v6 (F := Ideal) (m ((c : Thread nD τ).loc main_arg1))
    ∧ W7 m ρ c (Proc.devRef .tc main_v29) = val_main_v29 (F := Ideal) (m ((c : Thread nD τ).loc main_arg1))
    ∧ W7 m ρ c (Proc.devRef .tc main_arg5) = (m ((c : Thread nD τ).loc main_arg5)) :=
  ⟨(W7_of_ne m ρ c main_v3 (by decide)).trans (after_region1 m ρ c).1,
   (W7_of_ne m ρ c main_v6 (by decide)).trans (after_region1 m ρ c).2.1,
   (W7_of_ne m ρ c main_v29 (by decide)).trans (after_region1 m ρ c).2.2.1,
   (W7_of_ne m ρ c main_arg5 (by decide)).trans (after_region1 m ρ c).2.2.2.2⟩

/-! ## After the stretch that aggregates the second layer -/

theorem aggregate2 :
    W8 m ρ c (Proc.devRef .tc main_v59) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (stretch3_aggregate (W7 m ρ c)).trans ?_
  rw [(after_region2 m ρ c).1, (after_region2 m ρ c).2.1, (after_region2 m ρ c).2.2.1, projection2 m ρ c]
  exact (ref_aggregate2 _ _ _ _ _).symm

theorem biasRow2 :
    W8 m ρ c (Proc.devRef .tc main_v60) = val_main_v62 (F := Ideal) (m ((c : Thread nD τ).loc main_arg5)) := by
  refine (stretch3_bias (W7 m ρ c)).trans ?_
  rw [(after_region2 m ρ c).2.2.2]
  exact bias_row _

/-! ## The result -/

/-- After the last region the result buffer holds the reference's result of the same arguments. -/
theorem result :
    W9 m ρ c (Proc.devRef .tc main_v61)
      = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((region3 (V8 m ρ) c).trans ?_)
  show maximumf (F := Ideal) (addf (F := Ideal) (W8 m ρ c (Proc.devRef .tc main_v59))
      (broadcastInDim Cert.ReferenceIdeal.S50000x256 ![0, 1] Cert.ReferenceIdeal.Gen.bcast_S1x256_S50000x256_0_1 (W8 m ρ c (Proc.devRef .tc main_v60))))
    (broadcastInDim Cert.ReferenceIdeal.S50000x256 ![] Cert.ReferenceIdeal.Gen.bcast_S_S50000x256 (constant (F := Ideal) Cert.ReferenceIdeal.S_ .f32 0x00000000#32)) = _
  rw [aggregate2 m ρ c, biasRow2 m ρ c]
  unfold val_main_v65 val_main_v64 val_main_v63 val_main_call2_v0 val_main_call2_cst
  rfl

end Cert.KernelIdeal.Fold

end
-- ==== Proof.lean ====
/-
  A two-layer graph convolution: per layer a dense projection, the normalized aggregation over the edges (a gather at the
  sources, a scaling by the symmetric degree weights, a scatter-add into the destinations), a bias and a clamp below at
  zero. The kernel's program does the two projections as row-blocked matmuls (25 blocks of 2000 rows, the operands cut
  to bf16, which is the identity on the extended reals) and the bias-and-clamp as blocked elementwise regions; the
  aggregation stays on the host in both programs, operation for operation.

  Over the extended reals the two programs compute one function of the arguments: a row block of a matrix product is
  the product's rows (the contraction is the same sum over the inner index), the blocked bias-and-clamp is the
  reference's entry by entry, and the host chains are shared. No algebraic law beyond that enters, so the finiteness of
  the inputs is not used. The ideal pass rewrote nothing, so the idealization claim is trivial.

  The frames of the two kernel programs are the generated ones; the reference's frame is its run with the result
  dropped; the value claim reads the kernel's result buffer through the fold of its program (`Fold.result`) and the
  reference's through its stages.
-/
import proofs.«138582_j1915555414201_1_alg».proof.Defs
import proofs.«138582_j1915555414201_1_alg».proof.Proof.Gen.Kernel
import proofs.«138582_j1915555414201_1_alg».proof.Proof.Gen.Kernel.Frame
import proofs.«138582_j1915555414201_1_alg».proof.Proof.Gen.KernelIdeal
import proofs.«138582_j1915555414201_1_alg».proof.Proof.Gen.KernelIdeal.Frame
import proofs.«138582_j1915555414201_1_alg».proof.Proof.Gen.ReferenceIdeal
import proofs.«138582_j1915555414201_1_alg».proof.Proof.Gen.Pre_finite_inputs
import proofs.«138582_j1915555414201_1_alg».proof.Proof.RefRun
import proofs.«138582_j1915555414201_1_alg».proof.Proof.RefRead
import proofs.«138582_j1915555414201_1_alg».proof.Proof.KernelRun
import proofs.«138582_j1915555414201_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the result buffer at the reference's last stage of
    the kernel's arguments. -/
theorem algebraic : Cert.algebraic_KernelIdeal_ReferenceIdeal := by
  intro m ρ m' ρ' _ hagree
  refine ⟨fun c => Cert.KernelIdeal.Gen.W9 m ρ c (Proc.devRef .tc Cert.KernelIdeal.main_v61),
    Cert.KernelIdeal.ResultRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq m' c, (hagree c).1, (hagree c).2.1, (hagree c).2.2.1, (hagree c).2.2.2.1,
    (hagree c).2.2.2.2.1, (hagree c).2.2.2.2.2]
  exact (Cert.KernelIdeal.Fold.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
